-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x32x32 : Shape := ⟨4, ![2048, 16, 32, 32]⟩
abbrev S2048x1 : Shape := ⟨2, ![2048, 1]⟩
abbrev S16384x1 : Shape := ⟨2, ![16384, 1]⟩
abbrev S_ : Shape := ⟨0, ![]⟩

class Facts : Prop where
  bcast_S_S2048x16x32x32 : S_.BroadcastsInDim S2048x16x32x32 (![] : Fin 0 → Fin S2048x16x32x32.rank)
  reducesTo_S2048x16x32x32_S_d0_1_2_3 : S2048x16x32x32.ReducesTo [0, 1, 2, 3] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S16384x1 : S_.BroadcastsInDim S16384x1 (![] : Fin 0 → Fin S16384x1.rank)
  reducesTo_S16384x1_S_d0_1 : S16384x1.ReducesTo [0, 1] S_

variable [Facts]

def fn_part1 {F : FTy → Type} [FloatOps F] (main_arg4 : FVec F S16384x1 .f32) (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  let main_v19 : FVec F S16384x1 .f32 := Host.absf main_arg4
  let main_cst_6 : FVec F S_ .f32 := constant S_ .f32 0x7F800000#32
  let main_v20 : FVec F S16384x1 .f32 := broadcastInDim S16384x1 ![] bcast_S_S16384x1 main_cst_6
  let main_v21 : IVec S16384x1 1 := cmpf .olt main_v19 main_v20
  let main_c_7 : IVec S_ 1 := constantI S_ 1 1#1
  let main_v22 : IVec S_ 1 := (fun x v => Host.reduce IntOp.andi x v reducesTo_S16384x1_S_d0_1 h_S_) main_v21 main_c_7
  let main_v23 : IVec S_ 1 := andi main_v18 main_v22
  main_v23

def fn {F : FTy → Type} [FloatOps F] (main_arg0 : FVec F S2048x16x32x32 .f32) (main_arg1 : FVec F S2048x16x32x32 .f32) (main_arg2 : FVec F S2048x1 .f32) (main_arg3 : FVec F S2048x1 .f32) (main_arg4 : FVec F S16384x1 .f32) : IVec S_ 1 :=
  let main_v0 : FVec F S2048x16x32x32 .f32 := Host.absf main_arg0
  let main_cst : FVec F S_ .f32 := constant S_ .f32 0x7F800000#32
  let main_v1 : FVec F S2048x16x32x32 .f32 := broadcastInDim S2048x16x32x32 ![] bcast_S_S2048x16x32x32 main_cst
  let main_v2 : IVec S2048x16x32x32 1 := cmpf .olt main_v0 main_v1
  let main_c : IVec S_ 1 := constantI S_ 1 1#1
  let main_v3 : IVec S_ 1 := (fun x v => Host.reduce IntOp.andi x v reducesTo_S2048x16x32x32_S_d0_1_2_3 h_S_) main_v2 main_c
  let main_v4 : FVec F S2048x16x32x32 .f32 := Host.absf main_arg1
  let main_cst_0 : FVec F S_ .f32 := constant S_ .f32 0x7F800000#32
  let main_v5 : FVec F S2048x16x32x32 .f32 := broadcastInDim S2048x16x32x32 ![] bcast_S_S2048x16x32x32 main_cst_0
  let main_v6 : IVec S2048x16x32x32 1 := cmpf .olt main_v4 main_v5
  let main_c_1 : IVec S_ 1 := constantI S_ 1 1#1
  let main_v7 : IVec S_ 1 := (fun x v => Host.reduce IntOp.andi x v reducesTo_S2048x16x32x32_S_d0_1_2_3 h_S_) main_v6 main_c_1
  let main_v8 : IVec S_ 1 := andi main_v3 main_v7
  let main_v9 : FVec F S2048x1 .f32 := Host.absf main_arg2
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S2048x1 .f32 := Host.absf main_arg3
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_arg4 main_v13 main_v16
-- ==== Kernel.lean ====
abbrev S2048x16x32x32 : Shape := ⟨4, ![2048, 16, 32, 32]⟩
abbrev S2048x1 : Shape := ⟨2, ![2048, 1]⟩
abbrev S16384x1 : Shape := ⟨2, ![16384, 1]⟩
abbrev S2048x16384 : Shape := ⟨2, ![2048, 16384]⟩
abbrev S16384 : Shape := ⟨1, ![16384]⟩
abbrev S1x16384 : Shape := ⟨2, ![1, 16384]⟩
abbrev S256x2048 : Shape := ⟨2, ![256, 2048]⟩
abbrev S1x2048 : Shape := ⟨2, ![1, 2048]⟩
abbrev S256x1 : Shape := ⟨2, ![256, 1]⟩
abbrev S256 : Shape := ⟨1, ![256]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S2048x16x32x32, .f32⟩
  | .hbm, ⟨1, _⟩ => ⟨S2048x16x32x32, .f32⟩
  | .hbm, ⟨2, _⟩ => ⟨S2048x1, .f32⟩
  | .hbm, ⟨3, _⟩ => ⟨S2048x1, .f32⟩
  | .hbm, ⟨4, _⟩ => ⟨S16384x1, .f32⟩
  | .hbm, ⟨5, _⟩ => ⟨S2048x16384, .f32⟩
  | .hbm, ⟨6, _⟩ => ⟨S2048x16384, .f32⟩
  | .hbm, ⟨7, _⟩ => ⟨S16384, .f32⟩
  | .hbm, ⟨8, _⟩ => ⟨S1x16384, .f32⟩
  | .hbm, ⟨9, _⟩ => ⟨S2048x1, .f32⟩
  | .hbm, ⟨10, _⟩ => ⟨S_, .f32⟩
  | .hbm, ⟨11, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | _, _ => ⟨S2048x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2048x16x32x32_S2048x16384 : S2048x16x32x32.ShapeCasts S2048x16384
  shapeCasts_S16384x1_S16384 : S16384x1.ShapeCasts S16384
  shapeCasts_S16384_S1x16384 : S16384.ShapeCasts S1x16384
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  natLt_1_32 : 1 < 32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  reducesTo_S2048x1_S_d0_1 : S2048x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x16384.size a
  hwx0_0 : ∀ i : grid0.Coords, EltTy.bits .f32 = 32 ∨ (Rect.block (s := S2048x16384) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x16384.size a
  hwx0_1 : ∀ i : grid0.Coords, EltTy.bits .f32 = 32 ∨ (Rect.block (s := S2048x16384) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S2048x1.size a
  hwx0_3 : ∀ i : grid0.Coords, EltTy.bits .f32 = 32 ∨ (Rect.block (s := S2048x1) S256x1.size (cc0_transform_3 i) (hinb0_3 i)).WholeWords (EltTy.packing .f32)

variable [Facts₀]

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x16x32x32 : Shape := ⟨4, ![2048, 16, 32, 32]⟩
abbrev S2048x1 : Shape := ⟨2, ![2048, 1]⟩
abbrev S16384x1 : Shape := ⟨2, ![16384, 1]⟩
abbrev S_ : Shape := ⟨0, ![]⟩
abbrev S2048x16384 : Shape := ⟨2, ![2048, 16384]⟩
abbrev S16384 : Shape := ⟨1, ![16384]⟩
abbrev S1x16384 : Shape := ⟨2, ![1, 16384]⟩
abbrev S2048 : Shape := ⟨1, ![2048]⟩

abbrev nBuf : Space → Nat
  | .hbm => 28
  | .vmem => 0
  | .smem => 0
  | _ => 0

abbrev bufTy : (tb : Table) → Fin (tcTables nBuf tb) → BufTy
  | .hbm, ⟨0, _⟩ => ⟨S2048x16x32x32, .f32⟩
  | .hbm, ⟨1, _⟩ => ⟨S2048x16x32x32, .f32⟩
  | .hbm, ⟨2, _⟩ => ⟨S2048x1, .f32⟩
  | .hbm, ⟨3, _⟩ => ⟨S2048x1, .f32⟩
  | .hbm, ⟨4, _⟩ => ⟨S16384x1, .f32⟩
  | .hbm, ⟨5, _⟩ => ⟨S2048x16x32x32, .i1⟩
  | .hbm, ⟨6, _⟩ => ⟨S2048x16x32x32, .i1⟩
  | .hbm, ⟨7, _⟩ => ⟨S_, .f32⟩
  | .hbm, ⟨8, _⟩ => ⟨S_, .f32⟩
  | .hbm, ⟨9, _⟩ => ⟨S2048x16x32x32, .f32⟩
  | .hbm, ⟨10, _⟩ => ⟨S2048x16x32x32, .f32⟩
  | .hbm, ⟨11, _⟩ => ⟨S2048x16x32x32, .f32⟩
  | .hbm, ⟨12, _⟩ => ⟨S2048x16x32x32, .f32⟩
  | .hbm, ⟨13, _⟩ => ⟨S2048x16x32x32, .f32⟩
  | .hbm, ⟨14, _⟩ => ⟨S2048x16384, .f32⟩
  | .hbm, ⟨15, _⟩ => ⟨S16384, .f32⟩
  | .hbm, ⟨16, _⟩ => ⟨S1x16384, .f32⟩
  | .hbm, ⟨17, _⟩ => ⟨S2048x16384, .f32⟩
  | .hbm, ⟨18, _⟩ => ⟨S2048x16384, .f32⟩
  | .hbm, ⟨19, _⟩ => ⟨S2048x16384, .f32⟩
  | .hbm, ⟨20, _⟩ => ⟨S_, .f32⟩
  | .hbm, ⟨21, _⟩ => ⟨S2048, .f32⟩
  | .hbm, ⟨22, _⟩ => ⟨S2048x16384, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S_, .f32⟩
  | _, _ => ⟨S2048x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S_S2048x16x32x32 : S_.BroadcastsInDim S2048x16x32x32 (![] : Fin 0 → Fin S2048x16x32x32.rank)
  shapeCasts_S2048x16x32x32_S2048x16384 : S2048x16x32x32.ShapeCasts S2048x16384
  shapeCasts_S16384x1_S16384 : S16384x1.ShapeCasts S16384
  bcast_S16384_S1x16384_1 : S16384.BroadcastsInDim S1x16384 (![1] : Fin 1 → Fin S1x16384.rank)
  bcast_S1x16384_S2048x16384_0_1 : S1x16384.BroadcastsInDim S2048x16384 (![0, 1] : Fin 2 → Fin S2048x16384.rank)
  reducesTo_S2048x16384_S2048_d1 : S2048x16384.ReducesTo [1] S2048
  h_S_ : 0 < S_.numel
  reducesTo_S2048_S_d0 : S2048.ReducesTo [0] S_

variable [Facts₀]

class Facts : Prop extends Facts₀ where

variable [Facts]
-- ==== Proof.Pieces.lean ====
/-
  What one run of the kernel body leaves behind, as values.

  The body keeps two running columns per row tile: the sum of weighted squared residuals seen so far and the number of
  entries counted so far. At the first feature tile of a row tile it clears both columns and then adds the tile's
  contribution; at a middle tile it adds the contribution to what the tile before left; at the last tile it does the
  same and then writes the quotient of the two columns to the output block. Each lemma below says that the contents a
  case leaves in a column (or in the output block) are the corresponding arithmetic expression of the three input
  blocks and of what the columns held before. They hold for any float instance.
-/
import proofs.«148412_j67869073212117_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First tile of a row tile: the squared-residual column is cleared, then the tile's contribution is added to the cleared column. -/
theorem first_sq (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : cond0_0 i) (hc1 : ¬cond0_1 i)
    (x0 : Vec F S256x2048 .f32) (x1 : Vec F S256x2048 .f32) (x2 : Vec F S1x2048 .f32) :
    sout0_A_0 c i arg2 harg2 arg3 harg3 arg4 harg4 arg5 harg5 arg6 harg6 arg7 harg7 hc0 hc1 x0 x1 x2 = k0_pay7 x1 x0 x2 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S256x1) hz]
  simp only [View.readAt_eq_ld, harg2.read_unread, harg3.read_unread, harg4.read_unread, harg6.read_unread, harg7.read_unread,
    View.readCov_unit_zero (S := S256x1) _ hz, View.ld_unit_zero (S := S256x2048) hz, View.ld_unit_zero (S := S1x2048) hz, View.ld_unit_zero (S := S256x1) hz]

/-- First tile of a row tile: the count column is cleared, then the tile's count is added to the cleared column. -/
theorem first_cnt (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : cond0_0 i) (hc1 : ¬cond0_1 i)
    (x0 : Vec F S256x2048 .f32) (x1 : Vec F S256x2048 .f32) (x2 : Vec F S1x2048 .f32) :
    sout0_A_1 c i arg2 harg2 arg3 harg3 arg4 harg4 arg5 harg5 arg6 harg6 arg7 harg7 hc0 hc1 x0 x1 x2 = k0_pay8 x1 (k0_pay3 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S256x1) hz]
  simp only [View.readAt_eq_ld, harg2.read_unread, harg3.read_unread, harg4.read_unread, harg6.read_unread, harg7.read_unread,
    View.readCov_unit_zero (S := S256x1) _ hz, View.ld_unit_zero (S := S256x2048) hz, View.ld_unit_zero (S := S1x2048) hz, View.ld_unit_zero (S := S256x1) hz]

/-- A middle tile: the tile's contribution is added to what the squared-residual column held. -/
theorem mid_sq (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : ¬cond0_1 i)
    (x0 : Vec F S256x2048 .f32) (x1 : Vec F S256x2048 .f32) (x2 : Vec F S1x2048 .f32) (xs0 : Vec F S256x1 .f32) (xs1 : Vec F S256x1 .f32) :
    sout0_B_0 c i arg2 harg2 arg3 harg3 arg4 harg4 arg5 harg5 arg6 harg6 arg7 harg7 hc0 hc1 x0 x1 x2 xs0 xs1 = k0_pay7 x1 x0 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread,
    View.readCov_unit_zero (S := S256x1) _ hz, View.ld_unit_zero (S := S256x2048) hz, View.ld_unit_zero (S := S1x2048) hz, View.ld_unit_zero (S := S256x1) hz]

/-- A middle tile: the tile's count is added to what the count column held. -/
theorem mid_cnt (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : ¬cond0_1 i)
    (x0 : Vec F S256x2048 .f32) (x1 : Vec F S256x2048 .f32) (x2 : Vec F S1x2048 .f32) (xs0 : Vec F S256x1 .f32) (xs1 : Vec F S256x1 .f32) :
    sout0_B_1 c i arg2 harg2 arg3 harg3 arg4 harg4 arg5 harg5 arg6 harg6 arg7 harg7 hc0 hc1 x0 x1 x2 xs0 xs1 = k0_pay8 x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread,
    View.readCov_unit_zero (S := S256x1) _ hz, View.ld_unit_zero (S := S256x2048) hz, View.ld_unit_zero (S := S1x2048) hz, View.ld_unit_zero (S := S256x1) hz]

/-- The last tile: the squared-residual column gets the tile's contribution like any other. -/
theorem last_sq (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i)
    (x0 : Vec F S256x2048 .f32) (x1 : Vec F S256x2048 .f32) (x2 : Vec F S1x2048 .f32) (xs0 : Vec F S256x1 .f32) (xs1 : Vec F S256x1 .f32) :
    sout0_C_0 c i arg2 harg2 arg3 harg3 arg4 harg4 arg5 harg5 arg6 harg6 arg7 harg7 hc0 hc1 x0 x1 x2 xs0 xs1 = k0_pay7 x1 x0 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread,
    View.readCov_unit_zero (S := S256x1) _ hz, View.ld_unit_zero (S := S256x2048) hz, View.ld_unit_zero (S := S1x2048) hz, View.ld_unit_zero (S := S256x1) hz]

/-- The last tile: the count column gets the tile's count like any other. -/
theorem last_cnt (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i)
    (x0 : Vec F S256x2048 .f32) (x1 : Vec F S256x2048 .f32) (x2 : Vec F S1x2048 .f32) (xs0 : Vec F S256x1 .f32) (xs1 : Vec F S256x1 .f32) :
    sout0_C_1 c i arg2 harg2 arg3 harg3 arg4 harg4 arg5 harg5 arg6 harg6 arg7 harg7 hc0 hc1 x0 x1 x2 xs0 xs1 = k0_pay8 x1 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread,
    View.readCov_unit_zero (S := S256x1) _ hz, View.ld_unit_zero (S := S256x2048) hz, View.ld_unit_zero (S := S1x2048) hz, View.ld_unit_zero (S := S256x1) hz]

/-- The last tile: the output block is the quotient of the two columns as this tile leaves them. -/
theorem last_out (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i)
    (x0 : Vec F S256x2048 .f32) (x1 : Vec F S256x2048 .f32) (x2 : Vec F S1x2048 .f32) (xs0 : Vec F S256x1 .f32) (xs1 : Vec F S256x1 .f32) :
    out0_C_3 c i arg2 harg2 arg3 harg3 arg4 harg4 arg5 harg5 arg6 harg6 arg7 harg7 hc0 hc1 x0 x1 x2 xs0 xs1 = k0_pay1 (k0_pay7 x1 x0 x2 xs0) (k0_pay8 x1 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread,
    View.readCov_unit_zero (S := S256x1) _ hz, View.ld_unit_zero (S := S256x2048) hz, View.ld_unit_zero (S := S1x2048) hz, View.ld_unit_zero (S := S256x1) hz]

end Cert.KernelIdeal.Pieces

end
-- ==== Proof.Columns.lean ====
/-
  The two running columns from one grid point to the next.

  The grid runs over 8 row tiles and, inside each, over 8 feature tiles; point `t` is feature tile `t % 8` of row tile
  `t / 8`. At a first feature tile (`t % 8 = 0`) each column is the update of the cleared column; at every other point
  it is the update of what the point before left. At a last feature tile (`t % 8 = 7`) the output block is the quotient
  of the two columns as that point leaves them. These are the generated point-by-point contents with each case's
  stored pieces read back as values; they hold for any float instance.
-/
import proofs.«148412_j67869073212117_1_alg».proof.Proof.Pieces

noncomputable section

open Idealize.ShloMosaic Idealize.ShloMosaic.TcCoe Idealize.SL.Sem
open Idealize.ShloMosaic.Pipeline (Dat)

namespace Cert.KernelIdeal.Columns

open Cert.KernelIdeal Cert.KernelIdeal.Gen Cert.KernelIdeal.Pieces

variable {F : FTy → Type} [FloatOps F]
variable (m : (ℓ : Loc nD τ sig) → Buf (Elt F) ℓ)

/-- The target tile, the prediction tile and the weight row a point reads, and the two columns it leaves. -/
abbrev tblk (c : Dev nD) (t : Fin cfg0.N) : Vec F S256x2048 .f32 := iblk m c 1 t
abbrev oblk (c : Dev nD) (t : Fin cfg0.N) : Vec F S256x2048 .f32 := iblk m c 0 t
abbrev wblk (c : Dev nD) (t : Fin cfg0.N) : Vec F S1x2048 .f32 := iblk m c 2 t
abbrev sqCol (c : Dev nD) (n : ℕ) (h : n < cfg0.N) : Vec F S256x1 .f32 := (outsAt0 m c n h).2.1
abbrev cntCol (c : Dev nD) (n : ℕ) (h : n < cfg0.N) : Vec F S256x1 .f32 := (outsAt0 m c n h).2.2
abbrev outBlk (c : Dev nD) (n : ℕ) (h : n < cfg0.N) : Vec F S256x1 .f32 := (outsAt0 m c n h).1

theorem pred_lt (t : Fin cfg0.N) : t.val - 1 < cfg0.N := Nat.lt_of_le_of_lt (Nat.sub_le _ _) t.isLt

/-- At a first feature tile the squared-residual column is the update of the cleared column. -/
theorem sq_first (c : Dev nD) (t : Fin cfg0.N) (h0 : t.val % 8 = 0) (h1 : ¬t.val % 8 = 7) :
    sqCol m c t.val t.isLt = k0_pay7 (tblk m c t) (oblk m c t) (wblk m c t) (k0_pay2 (F := F)) := by
  show (outsAt0 m c t.val t.isLt).2.1 = _
  rw [outsAt0_A m c t h0 h1]
  dsimp only
  exact first_sq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- At a first feature tile the count column is the update of the cleared column. -/
theorem cnt_first (c : Dev nD) (t : Fin cfg0.N) (h0 : t.val % 8 = 0) (h1 : ¬t.val % 8 = 7) :
    cntCol m c t.val t.isLt = k0_pay8 (tblk m c t) (k0_pay3 (F := F)) := by
  show (outsAt0 m c t.val t.isLt).2.2 = _
  rw [outsAt0_A m c t h0 h1]
  dsimp only
  exact first_cnt c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

/-- At a middle feature tile the squared-residual column is the update of what the point before left. -/
theorem sq_mid (c : Dev nD) (t : Fin cfg0.N) (h0 : ¬t.val % 8 = 0) (h1 : ¬t.val % 8 = 7) :
    sqCol m c t.val t.isLt = k0_pay7 (tblk m c t) (oblk m c t) (wblk m c t) (sqCol m c (t.val - 1) (pred_lt t)) := by
  show (outsAt0 m c t.val t.isLt).2.1 = _
  rw [outsAt0_B m c t h0 h1]
  dsimp only
  exact mid_sq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- At a middle feature tile the count column is the update of what the point before left. -/
theorem cnt_mid (c : Dev nD) (t : Fin cfg0.N) (h0 : ¬t.val % 8 = 0) (h1 : ¬t.val % 8 = 7) :
    cntCol m c t.val t.isLt = k0_pay8 (tblk m c t) (cntCol m c (t.val - 1) (pred_lt t)) := by
  show (outsAt0 m c t.val t.isLt).2.2 = _
  rw [outsAt0_B m c t h0 h1]
  dsimp only
  exact mid_cnt c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- At a last feature tile the squared-residual column is updated like at any other. -/
theorem sq_last (c : Dev nD) (t : Fin cfg0.N) (h0 : ¬t.val % 8 = 0) (h1 : t.val % 8 = 7) :
    sqCol m c t.val t.isLt = k0_pay7 (tblk m c t) (oblk m c t) (wblk m c t) (sqCol m c (t.val - 1) (pred_lt t)) := by
  show (outsAt0 m c t.val t.isLt).2.1 = _
  rw [outsAt0_C m c t h0 h1]
  dsimp only
  exact last_sq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- At a last feature tile the count column is updated like at any other. -/
theorem cnt_last (c : Dev nD) (t : Fin cfg0.N) (h0 : ¬t.val % 8 = 0) (h1 : t.val % 8 = 7) :
    cntCol m c t.val t.isLt = k0_pay8 (tblk m c t) (cntCol m c (t.val - 1) (pred_lt t)) := by
  show (outsAt0 m c t.val t.isLt).2.2 = _
  rw [outsAt0_C m c t h0 h1]
  dsimp only
  exact last_cnt c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- At a last feature tile the output block is the quotient of the two columns as that point leaves them. -/
theorem out_last (c : Dev nD) (t : Fin cfg0.N) (h0 : ¬t.val % 8 = 0) (h1 : t.val % 8 = 7) :
    outBlk m c t.val t.isLt = k0_pay1 (sqCol m c t.val t.isLt) (cntCol m c t.val t.isLt) := by
  rw [sq_last m c t h0 h1, cnt_last m c t h0 h1]
  show (outsAt0 m c t.val t.isLt).1 = _
  rw [outsAt0_C m c t h0 h1]
  dsimp only
  exact last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Columns

end
-- ==== Proof.Spec.lean ====
/-
  The quantity both programs compute, stated once over the extended reals, and the one law that joins them.

  For a batch of 2048 samples with 16384 features each (a sample's features are its [16, 32, 32] entries in
  row-major order), an observed value `t`, a prediction `o` and a per-feature weight `w`, the weighted squared
  residual of one feature is `((t - o) * 1 * w)²` — the factor `1` is the "this target is a number" mask, which on
  the extended reals is always set. A sample's loss is the sum of its features' weighted squared residuals divided by
  the number of features counted (a sum of ones), and the result is the sum of the samples' losses.

  The law: a sum over the 16384 features, taken 2048 at a time and accumulated tile after tile, is the whole sum.
  It is stated over sums on initial segments of the naturals, where splitting off the next tile is
  `Finset.sum_range_add`; only commutativity and associativity of `+` on the extended reals are used, so nothing here
  needs the inputs to be finite.
-/
import Idealize.ShloMosaic.PureOps.Ideal
import Idealize.ShloMosaic.PureOps.Ideal.Laws
import Idealize.ShloMosaic.Lib.ValueIdx
import Mathlib.Algebra.BigOperators.Intervals

noncomputable section

open scoped BigOperators

namespace Cert.Spec

open Idealize.ShloMosaic Idealize.ShloMosaic.ValueIdx

/-- The shape of the predictions and of the targets: 2048 samples of [16, 32, 32] features. -/
abbrev Sx : Shape := ⟨4, ![2048, 16, 32, 32]⟩
/-- The shape of the feature weights: one column of 16384. -/
abbrev Sw : Shape := ⟨2, ![16384, 1]⟩

/-- Feature `f` of sample `b`, as a position in the [2048, 16, 32, 32] array: row-major within the sample. -/
def pos (b : Fin 2048) (f : Fin 16384) : Sx.Idx :=
  ix4 b ⟨f.val / 1024, by have := f.isLt; omega⟩ ⟨f.val / 32 % 32, Nat.mod_lt _ (by decide)⟩ ⟨f.val % 32, Nat.mod_lt _ (by decide)⟩

/-- Feature `f`'s weight, as a position in the [16384, 1] column. -/
def wpos (f : Fin 16384) : Sw.Idx := ix2 f (0 : Fin 1)

/-- One feature's weighted squared residual, with the always-set mask written as the factor `1`. -/
def sqres (t o w : EReal) : EReal := ((t - o) * 1 * w) * ((t - o) * 1 * w)

/-- Sample `b`'s weighted squared residual at feature `f`. -/
def term (o t : Sx.Idx → EReal) (w : Sw.Idx → EReal) (b : Fin 2048) (f : Fin 16384) : EReal :=
  sqres (t (pos b f)) (o (pos b f)) (w (wpos f))

/-- The sum of sample `b`'s weighted squared residuals over all its features. -/
def rowNum (o t : Sx.Idx → EReal) (w : Sw.Idx → EReal) (b : Fin 2048) : EReal := ∑ f : Fin 16384, term o t w b f

/-- How many features a sample counts: a one for each. -/
def rowDen : EReal := ∑ _f : Fin 16384, (1 : EReal)

/-- The result: the samples' normalised losses, summed. -/
def loss (o t : Sx.Idx → EReal) (w : Sw.Idx → EReal) : EReal := ∑ b : Fin 2048, Ideal.div (rowNum o t w b) rowDen

/-! ## The mask: on the extended reals nothing differs from itself -/

/-- "unordered or different" of a value and itself is the cleared bit. -/
theorem cmp_une_self (a : EReal) : Ideal.cmp .une a a = 0#1 := by
  unfold Ideal.cmp; simp

/-- "ordered and different" of a value and itself is the cleared bit. -/
theorem cmp_one_self (a : EReal) : Ideal.cmp .one a a = 0#1 := by
  unfold Ideal.cmp; simp

/-! ## A rank-1 index set is its coordinate's range -/

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over a column's positions is the sum over its rows. -/
theorem sum_col {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

/-! ## Sums over an initial segment of the features -/

/-- A function on the 16384 features read at a natural number: zero past the end. -/
def atNat (g : Fin 16384 → EReal) (k : ℕ) : EReal := if h : k < 16384 then g ⟨k, h⟩ else 0

theorem atNat_val (g : Fin 16384 → EReal) (f : Fin 16384) : atNat g f.val = g f := by
  unfold atNat; rw [dif_pos f.isLt]

theorem atNat_of_lt (g : Fin 16384 → EReal) (k : ℕ) (h : k < 16384) : atNat g k = g ⟨k, h⟩ := by
  unfold atNat; rw [dif_pos h]

/-- The sum of `g` over the first `n` features. -/
def upTo (g : Fin 16384 → EReal) (n : ℕ) : EReal := ∑ k ∈ Finset.range n, atNat g k

/-- Over all 16384 features it is the whole sum. -/
theorem upTo_all (g : Fin 16384 → EReal) : upTo g 16384 = ∑ f : Fin 16384, g f := by
  unfold upTo
  rw [Finset.sum_range]
  exact Finset.sum_congr rfl fun f _ => atNat_val g f

/-- Taking in the next tile of 2048 features: tile `j` (of 8) adds the sum of its own 2048 terms. -/
theorem upTo_tile (g : Fin 16384 → EReal) (j : ℕ) (hj : j < 8) :
    upTo g (2048 * (j + 1)) = upTo g (2048 * j) + ∑ q : Fin 2048, g ⟨2048 * j + q.val, by have := q.isLt; omega⟩ := by
  unfold upTo
  rw [show 2048 * (j + 1) = 2048 * j + 2048 by ring, Finset.sum_range_add]
  congr 1
  rw [Finset.sum_range]
  exact Finset.sum_congr rfl fun q _ => atNat_of_lt g _ _

/-- The first tile alone. -/
theorem upTo_first (g : Fin 16384 → EReal) :
    upTo g 2048 = ∑ q : Fin 2048, g ⟨q.val, by have := q.isLt; omega⟩ := by
  have h := upTo_tile g 0 (by decide)
  simp only [Nat.mul_zero, Nat.zero_add, Nat.mul_one] at h
  rw [h]
  unfold upTo
  rw [Finset.range_zero, Finset.sum_empty, zero_add]

/-- No features taken in yet: the empty sum. -/
theorem upTo_zero (g : Fin 16384 → EReal) : upTo g 0 = 0 := by
  unfold upTo; rw [Finset.range_zero, Finset.sum_empty]

/-! ## Counting the first `n` features -/

/-- A one for each of the first `n` features. -/
def ones (n : ℕ) : EReal := ∑ _k ∈ Finset.range n, (1 : EReal)

theorem ones_zero : ones 0 = 0 := by
  unfold ones; rw [Finset.range_zero, Finset.sum_empty]

/-- All 16384 of them: the specification's denominator. -/
theorem ones_all : ones 16384 = rowDen := by
  unfold ones rowDen
  exact Finset.sum_range fun _ => (1 : EReal)

/-- The next tile adds its 2048 ones. -/
theorem ones_tile (j : ℕ) : ones (2048 * (j + 1)) = ones (2048 * j) + ∑ _q : Fin 2048, (1 : EReal) := by
  unfold ones
  rw [show 2048 * (j + 1) = 2048 * j + 2048 by ring, Finset.sum_range_add]
  exact congrArg (∑ _k ∈ Finset.range (2048 * j), (1 : EReal) + ·) (Finset.sum_range fun _ => (1 : EReal))

end Cert.Spec

end
-- ==== Proof.Payload.lean ====
/-
  The kernel body's arithmetic, read at one row of a tile, on the extended reals.

  For a tile of 256 rows by 2048 feature columns the body forms, entry by entry, the masked and weighted residual
  `((t - o) * mask) * w` and its square, sums each row's squares and each row's mask values over the 2048 columns,
  and adds the two row sums to the two running columns. On the extended reals the mask bit is set everywhere and its
  float value is one. So a row's update of the squared-residual column adds the 2048 specified weighted squared
  residuals of that row, the update of the count column adds 2048 ones, and the quotient the last tile stores is the
  quotient of the two columns, row by row.
-/
import proofs.«148412_j67869073212117_1_alg».proof.Proof.Gen.KernelIdeal.Skeleton
import proofs.«148412_j67869073212117_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Cert.Spec
open Idealize.ShloMosaic Idealize.ShloMosaic.ValueIdx

/-- A vector of length `a` recast as a column reads, at row `r`, its entry `r`. -/
theorem col_cast_apply {α : Type} {a : ℕ} (x : (⟨1, ![a]⟩ : Shape).Idx → α) (h : (⟨1, ![a]⟩ : Shape).ShapeCasts ⟨2, ![a, 1]⟩)
    (r : Fin a) : shapeCast ⟨2, ![a, 1]⟩ x h (ix2 r (0 : Fin 1)) = x (ix1 r) := by
  refine shapeCast_apply x h (ix2 r (0 : Fin 1)) (ix1 r) ?_
  rw [Shape.rowMajor_val_one, Shape.rowMajor_val_two]
  show r.val = r.val * 1 + 0
  omega

/-- A row sum over the 2048 columns of a tile, recast as a column and added to a running column: at row `r` it is the
    running entry plus the sum of the row's 2048 entries. -/
theorem add_rowsum_at (v : FVec Ideal S256x2048 .f32) (s : FVec Ideal S256x1 .f32)
    (hacc : (0x00000000#32 : BitVec 32) = 0x00000000#32) (r : Fin 256) :
    addf s (shapeCast S256x1 (multiReduction .add [1] S256 v 0x00000000#32 reduces_S256x2048_S256 (.inl rfl) hacc) shapeCasts_S256_S256x1)
        (ix2 r (0 : Fin 1))
      = s (ix2 r (0 : Fin 1)) + ∑ q : Fin 2048, v (ix2 r q) := by
  rw [addf_apply]
  refine congrArg (s (ix2 r (0 : Fin 1)) + ·) ?_
  refine (col_cast_apply _ shapeCasts_S256_S256x1 r).trans ?_
  refine (Ideal.multiReduction_add_single v 0x00000000#32 reduces_S256x2048_S256 (.inl rfl) hacc (ix1 r)).trans ?_
  refine Finset.sum_congr rfl fun q _ => congrArg v ?_
  funext a
  match a with
  | ⟨0, _⟩ => rfl
  | ⟨1, _⟩ => rfl

variable (xt xo : FVec Ideal S256x2048 .f32) (xw : FVec Ideal S1x2048 .f32) (s : FVec Ideal S256x1 .f32)

/-- The tile's "is a number" bit is set at every entry. -/
theorem mask_set (j : S256x2048.Idx) : k0_pay5 (F := Ideal) xt j = 1#1 := by
  unfold k0_pay5 k0_pay4
  simp only [shapeCast_self]
  show Ideal.cmp .one (xt j) (xt j) ^^^ 1#1 = 1#1
  rw [cmp_one_self]
  rfl

/-- Its float value is one. -/
theorem maskf_one (j : S256x2048.Idx) : k0_pay6 (F := Ideal) xt j = 1 := by
  unfold k0_pay6
  show ((((k0_pay5 (F := Ideal) xt j).setWidth 32).toInt : ℝ) : EReal) = 1
  rw [mask_set]
  have h : ((1#1 : BitVec 1).setWidth 32).toInt = 1 := by decide
  rw [h]
  simp

/-- The squared-residual column's update at row `r`: the running entry plus the row's 2048 specified terms, each read
    from the target tile, the prediction tile and the weight row at the same column. -/
theorem sq_update_at (r : Fin 256) :
    k0_pay7 (F := Ideal) xt xo xw s (ix2 r (0 : Fin 1))
      = s (ix2 r (0 : Fin 1)) + ∑ q : Fin 2048, sqres (xt (ix2 r q)) (xo (ix2 r q)) (xw (ix2 (0 : Fin 1) q)) := by
  unfold k0_pay7
  simp only [shapeCast_self]
  refine (add_rowsum_at _ s rfl r).trans ?_
  refine congrArg (s (ix2 r (0 : Fin 1)) + ·) (Finset.sum_congr rfl fun q _ => ?_)
  simp only [mulf_apply, subf_apply, select_apply, mask_set, maskf_one, select_one, k0_pay4, shapeCast_self,
    broadcastTo_1b_ab_apply]
  rfl

/-- The count column's update at row `r`: the running entry plus a one for each of the row's 2048 entries. -/
theorem cnt_update_at (r : Fin 256) :
    k0_pay8 (F := Ideal) xt s (ix2 r (0 : Fin 1)) = s (ix2 r (0 : Fin 1)) + ∑ _q : Fin 2048, (1 : EReal) := by
  unfold k0_pay8
  simp only [shapeCast_self]
  refine (add_rowsum_at _ s rfl r).trans ?_
  refine congrArg (s (ix2 r (0 : Fin 1)) + ·) (Finset.sum_congr rfl fun q _ => ?_)
  exact maskf_one xt (ix2 r q)

/-- The stored quotient, entry by entry. -/
theorem quot_at (a b : FVec Ideal S256x1 .f32) (j : S256x1.Idx) : k0_pay1 (F := Ideal) a b j = Ideal.div (a j) (b j) := rfl

/-- The cleared squared-residual column is zero everywhere. -/
theorem clear_sq_at (j : S256x1.Idx) : k0_pay2 (F := Ideal) j = 0 := by
  unfold k0_pay2
  simp only [shapeCast_self]
  show Ideal.ofBits .f32 0x00000000#32 = 0
  exact Ideal.ofBits_zero_f32

/-- The cleared count column is zero everywhere. -/
theorem clear_cnt_at (j : S256x1.Idx) : k0_pay3 (F := Ideal) j = 0 := by
  unfold k0_pay3
  simp only [shapeCast_self]
  show Ideal.ofBits .f32 0x00000000#32 = 0
  exact Ideal.ofBits_zero_f32

end Cert.KernelIdeal.Payload

end
-- ==== Proof.Blocks.lean ====
/-
  Where a grid point's input blocks sit in the arrays the region is launched on, and where those arrays' entries sit in
  the program's arguments.

  Point `t` is feature tile `t % 8` of row tile `t / 8`. Its target and prediction tiles are rows
  `256 (t / 8) … + 255` and columns `2048 (t % 8) … + 2047` of the [2048, 16384] arrays; its weight row is the same
  columns of the [1, 16384] array. The [2048, 16384] arrays are the [2048, 16, 32, 32] arguments flattened sample by
  sample, so entry `(b, f)` is the argument's entry at feature `f`'s row-major position inside sample `b`; the
  [1, 16384] array is the weight column laid out as a row.
-/
import proofs.«148412_j67869073212117_1_alg».proof.Proof.Gen.KernelIdeal.Frame
import proofs.«148412_j67869073212117_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.Spec
open Idealize.ShloMosaic.ValueIdx

variable {F : FTy → Type} [FloatOps F]
variable (m : (ℓ : Loc nD τ sig) → Buf (Elt F) ℓ)

theorem lt64 (t : Fin cfg0.N) : t.val < 64 := lt_of_lt_of_eq t.isLt (show cfg0.N = 64 from N_0)

/-- The array row of a point's tile row `r`, and the array column of its tile column `q`. -/
def rowOf (t : Fin cfg0.N) (r : Fin 256) : Fin 2048 := ⟨256 * (t.val / 8) + r.val, by have := lt64 t; have := r.isLt; omega⟩
def colOf (t : Fin cfg0.N) (q : Fin 2048) : Fin 16384 := ⟨2048 * (t.val % 8) + q.val, by have := q.isLt; omega⟩

/-- The windows' block indices in closed form, decided over the grid. -/
theorem index_o : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem index_t : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem index_w : ∀ t : Fin cfg0.N, win0_2.index t 0 = 0 ∧ win0_2.index t 1 = t.val % 8 :=
  (by decide +kernel : ∀ t : Fin grid0.N, win0_2.index t 0 = 0 ∧ win0_2.index t 1 = t.val % 8)
theorem index_out : ∀ t : Fin cfg0.N, win0_3.index t 0 = t.val / 8 ∧ win0_3.index t 1 = 0 :=
  (by decide +kernel : ∀ t : Fin grid0.N, win0_3.index t 0 = t.val / 8 ∧ win0_3.index t 1 = 0)

/-- The flattened predictions, the flattened targets and the weight row, as the region finds them. -/
abbrev oarr (c : Dev nD) : Vec F S2048x16384 .f32 := V m c main_v0
abbrev tarr (c : Dev nD) : Vec F S2048x16384 .f32 := V m c main_v1
abbrev warr (c : Dev nD) : Vec F S1x16384 .f32 := V m c main_v3

/-- A point's prediction tile at `(r, q)` is the flattened predictions at the tile's row and column. -/
theorem oblk_at (c : Dev nD) (t : Fin cfg0.N) (r : Fin 256) (q : Fin 2048) :
    (iblk m c 0 t : Vec F S256x2048 .f32) (ix2 r q) = oarr m c (ix2 (rowOf t r) (colOf t q)) := by
  unfold iblk
  rw [View.read_apply]
  show V m c main_v0 _ = V m c main_v0 _
  congr 1
  funext a
  apply Fin.ext
  match a with
  | ⟨0, _⟩ => show win0_0.index t 0 * 256 + 1 * r.val = 256 * (t.val / 8) + r.val; rw [(index_o t).1]; omega
  | ⟨1, _⟩ => show win0_0.index t 1 * 2048 + 1 * q.val = 2048 * (t.val % 8) + q.val; rw [(index_o t).2]; omega

/-- A point's target tile at `(r, q)` is the flattened targets at the tile's row and column. -/
theorem tblk_at (c : Dev nD) (t : Fin cfg0.N) (r : Fin 256) (q : Fin 2048) :
    (iblk m c 1 t : Vec F S256x2048 .f32) (ix2 r q) = tarr m c (ix2 (rowOf t r) (colOf t q)) := by
  unfold iblk
  rw [View.read_apply]
  show V m c main_v1 _ = V m c main_v1 _
  congr 1
  funext a
  apply Fin.ext
  match a with
  | ⟨0, _⟩ => show win0_1.index t 0 * 256 + 1 * r.val = 256 * (t.val / 8) + r.val; rw [(index_t t).1]; omega
  | ⟨1, _⟩ => show win0_1.index t 1 * 2048 + 1 * q.val = 2048 * (t.val % 8) + q.val; rw [(index_t t).2]; omega

/-- A point's weight row at column `q` is the weight row at the tile's column. -/
theorem wblk_at (c : Dev nD) (t : Fin cfg0.N) (q : Fin 2048) :
    (iblk m c 2 t : Vec F S1x2048 .f32) (ix2 (0 : Fin 1) q) = warr m c (ix2 (0 : Fin 1) (colOf t q)) := by
  unfold iblk
  rw [View.read_apply]
  show V m c main_v3 _ = V m c main_v3 _
  congr 1
  funext a
  apply Fin.ext
  match a with
  | ⟨0, _⟩ => show win0_2.index t 0 * 1 + 1 * 0 = 0; rw [(index_w t).1]
  | ⟨1, _⟩ => show win0_2.index t 1 * 2048 + 1 * q.val = 2048 * (t.val % 8) + q.val; rw [(index_w t).2]; omega

/-- The flattened predictions at `(b, f)` are the argument at feature `f`'s position inside sample `b`. -/
theorem oarr_at (c : Dev nD) (b : Fin 2048) (f : Fin 16384) :
    oarr m c (ix2 b f) = m ((c : Thread nD τ).loc main_arg0) (pos b f) := by
  have e : (V m c main_v0 : Vec F S2048x16384 .f32)
      = shapeCast S2048x16384 (m ((c : Thread nD τ).loc main_arg0)) shapeCasts_S2048x16x32x32_S2048x16384 := by
    show StableHlo.after hostOps0 (fun b => m (c, b)) (Proc.devRef .tc main_v0) = _
    after_results
    rfl
  show V m c main_v0 _ = _
  rw [e]
  refine shapeCast_apply _ _ (ix2 b f) (pos b f) ?_
  rw [Shape.rowMajor_val_four, Shape.rowMajor_val_two]
  have := b.isLt; have := f.isLt
  show ((b.val * 16 + f.val / 1024) * 32 + f.val / 32 % 32) * 32 + f.val % 32 = b.val * 16384 + f.val
  omega

/-- The flattened targets at `(b, f)` are the argument at feature `f`'s position inside sample `b`. -/
theorem tarr_at (c : Dev nD) (b : Fin 2048) (f : Fin 16384) :
    tarr m c (ix2 b f) = m ((c : Thread nD τ).loc main_arg1) (pos b f) := by
  have e : (V m c main_v1 : Vec F S2048x16384 .f32)
      = shapeCast S2048x16384 (m ((c : Thread nD τ).loc main_arg1)) shapeCasts_S2048x16x32x32_S2048x16384 := by
    show StableHlo.after hostOps0 (fun b => m (c, b)) (Proc.devRef .tc main_v1) = _
    after_results
    rfl
  show V m c main_v1 _ = _
  rw [e]
  refine shapeCast_apply _ _ (ix2 b f) (pos b f) ?_
  rw [Shape.rowMajor_val_four, Shape.rowMajor_val_two]
  have := b.isLt; have := f.isLt
  show ((b.val * 16 + f.val / 1024) * 32 + f.val / 32 % 32) * 32 + f.val % 32 = b.val * 16384 + f.val
  omega

/-- The weight row at column `f` is the weight column's entry `f`. -/
theorem warr_at (c : Dev nD) (f : Fin 16384) :
    warr m c (ix2 (0 : Fin 1) f) = m ((c : Thread nD τ).loc main_arg4) (wpos f) := by
  have e : (V m c main_v3 : Vec F S1x16384 .f32)
      = shapeCast S1x16384 (shapeCast S16384 (m ((c : Thread nD τ).loc main_arg4)) shapeCasts_S16384x1_S16384) shapeCasts_S16384_S1x16384 := by
    show StableHlo.after hostOps0 (fun b => m (c, b)) (Proc.devRef .tc main_v3) = _
    after_results
    rfl
  show V m c main_v3 _ = _
  rw [e]
  refine (shapeCast_apply _ shapeCasts_S16384_S1x16384 (ix2 (0 : Fin 1) f) (ix1 f) ?_).trans ?_
  · rw [Shape.rowMajor_val_one, Shape.rowMajor_val_two]
    show f.val = 0 * 16384 + f.val
    omega
  · refine shapeCast_apply _ shapeCasts_S16384x1_S16384 (ix1 f) (wpos f) ?_
    rw [Shape.rowMajor_val_two, Shape.rowMajor_val_one]
    show f.val * 1 + 0 = f.val
    omega

end Cert.KernelIdeal.Blocks

end
-- ==== Proof.Accum.lean ====
/-
  What the two running columns hold after each grid point, on the extended reals.

  Point `t` is feature tile `t % 8` of row tile `t / 8`. After it, row `r` of the squared-residual column holds the sum
  of the specified weighted squared residuals of array row `256 (t / 8) + r` over its first `2048 (t % 8 + 1)`
  features, and row `r` of the count column holds that many ones. The proof goes from each point to the next: a first
  feature tile starts from the cleared columns (an empty sum), every other tile from what the tile before left, and
  taking in one more tile of 2048 features is the specification's splitting of an initial segment. At a last feature
  tile the segment is all 16384 features, so the stored quotient is the specified numerator over the specified
  denominator.
-/
import proofs.«148412_j67869073212117_1_alg».proof.Proof.Columns
import proofs.«148412_j67869073212117_1_alg».proof.Proof.Payload
import proofs.«148412_j67869073212117_1_alg».proof.Proof.Blocks

noncomputable section

open scoped BigOperators
open Idealize.ShloMosaic Idealize.ShloMosaic.TcCoe Idealize.SL.Sem
open Idealize.ShloMosaic.Pipeline (Dat)

namespace Cert.KernelIdeal.Accum

open Cert.KernelIdeal Cert.KernelIdeal.Gen Cert.Spec
open Cert.KernelIdeal.Columns Cert.KernelIdeal.Payload Cert.KernelIdeal.Blocks
open Idealize.ShloMosaic.ValueIdx

variable (m : (ℓ : Loc nD τ sig) → Buf (Elt Ideal) ℓ)

/-- The three arguments the result depends on, as arrays of extended reals. -/
abbrev argO (c : Dev nD) : Sx.Idx → EReal := m ((c : Thread nD τ).loc main_arg0)
abbrev argT (c : Dev nD) : Sx.Idx → EReal := m ((c : Thread nD τ).loc main_arg1)
abbrev argW (c : Dev nD) : Sw.Idx → EReal := m ((c : Thread nD τ).loc main_arg4)

/-- Array row `b`'s weighted squared residuals, feature by feature. -/
abbrev rowTerm (c : Dev nD) (b : Fin 2048) : Fin 16384 → EReal := term (argO m c) (argT m c) (argW m c) b

/-- One tile's update of the squared-residual column at row `r`: the running entry plus the row's terms at the tile's
    2048 features. -/
theorem tile_sq (c : Dev nD) (t : Fin cfg0.N) (r : Fin 256) (s : FVec Ideal S256x1 .f32) :
    k0_pay7 (F := Ideal) (tblk m c t) (oblk m c t) (wblk m c t) s (ix2 r (0 : Fin 1))
      = s (ix2 r (0 : Fin 1)) + ∑ q : Fin 2048, rowTerm m c (rowOf t r) (colOf t q) := by
  refine (sq_update_at (tblk m c t) (oblk m c t) (wblk m c t) s r).trans ?_
  refine congrArg (s (ix2 r (0 : Fin 1)) + ·) (Finset.sum_congr rfl fun q _ => ?_)
  show sqres ((iblk m c 1 t : Vec Ideal S256x2048 .f32) (ix2 r q)) ((iblk m c 0 t : Vec Ideal S256x2048 .f32) (ix2 r q))
      ((iblk m c 2 t : Vec Ideal S1x2048 .f32) (ix2 (0 : Fin 1) q))
    = sqres (argT m c (pos (rowOf t r) (colOf t q))) (argO m c (pos (rowOf t r) (colOf t q))) (argW m c (wpos (colOf t q)))
  rw [tblk_at m c t r q, oblk_at m c t r q, wblk_at m c t q, tarr_at, oarr_at, warr_at]

/-- One tile's update of the count column at row `r`: the running entry plus 2048 ones. -/
theorem tile_cnt (c : Dev nD) (t : Fin cfg0.N) (r : Fin 256) (s : FVec Ideal S256x1 .f32) :
    k0_pay8 (F := Ideal) (tblk m c t) s (ix2 r (0 : Fin 1)) = s (ix2 r (0 : Fin 1)) + ∑ _q : Fin 2048, (1 : EReal) :=
  cnt_update_at (tblk m c t) s r

/-- What the columns hold after point `n`. -/
def Holds (c : Dev nD) (n : ℕ) (h : n < cfg0.N) : Prop := ∀ r : Fin 256,
  sqCol m c n h (ix2 r (0 : Fin 1)) = upTo (rowTerm m c (rowOf ⟨n, h⟩ r)) (2048 * (n % 8 + 1))
  ∧ cntCol m c n h (ix2 r (0 : Fin 1)) = ones (2048 * (n % 8 + 1))

/-- A first feature tile: from the cleared columns. -/
theorem holds_first (c : Dev nD) (t : Fin cfg0.N) (h0 : t.val % 8 = 0) : Holds m c t.val t.isLt := by
  intro r
  have h1 : ¬t.val % 8 = 7 := by omega
  have e : 2048 * (t.val % 8) = 0 := by omega
  constructor
  · rw [sq_first m c t h0 h1]
    refine (tile_sq m c t r _).trans ?_
    rw [upTo_tile _ (t.val % 8) (by omega)]
    refine congrArg₂ (· + ·) ?_ rfl
    rw [clear_sq_at, e, upTo_zero]
  · rw [cnt_first m c t h0 h1]
    refine (tile_cnt m c t r _).trans ?_
    rw [ones_tile]
    refine congrArg₂ (· + ·) ?_ rfl
    rw [clear_cnt_at, e, ones_zero]

/-- Any other tile: from what the tile before left. -/
theorem holds_next (c : Dev nD) (t : Fin cfg0.N) (h0 : ¬t.val % 8 = 0) (ih : Holds m c (t.val - 1) (pred_lt t)) :
    Holds m c t.val t.isLt := by
  intro r
  have hlt := lt64 t
  have erow : rowOf ⟨t.val - 1, pred_lt t⟩ r = rowOf t r := Fin.ext (by show 256 * ((t.val - 1) / 8) + r.val = 256 * (t.val / 8) + r.val; omega)
  have eseg : 2048 * ((t.val - 1) % 8 + 1) = 2048 * (t.val % 8) := by omega
  have hsq : sqCol m c t.val t.isLt = k0_pay7 (tblk m c t) (oblk m c t) (wblk m c t) (sqCol m c (t.val - 1) (pred_lt t)) := by
    by_cases h1 : t.val % 8 = 7
    · exact sq_last m c t h0 h1
    · exact sq_mid m c t h0 h1
  have hcnt : cntCol m c t.val t.isLt = k0_pay8 (tblk m c t) (cntCol m c (t.val - 1) (pred_lt t)) := by
    by_cases h1 : t.val % 8 = 7
    · exact cnt_last m c t h0 h1
    · exact cnt_mid m c t h0 h1
  constructor
  · rw [hsq]
    refine (tile_sq m c t r _).trans ?_
    rw [upTo_tile _ (t.val % 8) (by omega)]
    refine congrArg₂ (· + ·) ?_ rfl
    rw [(ih r).1, erow, eseg]
  · rw [hcnt]
    refine (tile_cnt m c t r _).trans ?_
    rw [ones_tile]
    refine congrArg₂ (· + ·) ?_ rfl
    rw [(ih r).2, eseg]

/-- After every point. -/
theorem holds (c : Dev nD) : ∀ (n : ℕ) (h : n < cfg0.N), Holds m c n h
  | 0, h => holds_first m c ⟨0, h⟩ rfl
  | n + 1, h => by
    by_cases h0 : (n + 1) % 8 = 0
    · exact holds_first m c ⟨n + 1, h⟩ h0
    · exact holds_next m c ⟨n + 1, h⟩ h0 (holds c n (Nat.lt_of_succ_lt h))

/-- At a last feature tile the output block holds, at row `r`, array row `256 (t / 8) + r`'s normalised loss. -/
theorem out_at (c : Dev nD) (t : Fin cfg0.N) (h1 : t.val % 8 = 7) (r : Fin 256) :
    outBlk m c t.val t.isLt (ix2 r (0 : Fin 1))
      = Ideal.div (rowNum (argO m c) (argT m c) (argW m c) (rowOf t r)) rowDen := by
  have h0 : ¬t.val % 8 = 0 := by omega
  rw [out_last m c t h0 h1, quot_at, (holds m c t.val t.isLt r).1, (holds m c t.val t.isLt r).2]
  have e : 2048 * (t.val % 8 + 1) = 16384 := by omega
  rw [e, upTo_all, ones_all]
  rfl

end Cert.KernelIdeal.Accum

end
-- ==== Proof.KernelRun.lean ====
/-
  The kernel program's run, with its result named.

  Only the last feature tile of each row tile writes its output block back, and that block holds the normalised losses
  of the row tile's 256 samples; the 8 row tiles' blocks cover the [2048, 1] output array, which therefore ends holding
  every sample's normalised loss. After the region the program sums that array from zero. A sum over the positions of
  a column is the sum over its rows, so the result is the specified loss.
-/
import proofs.«148412_j67869073212117_1_alg».proof.Proof.Accum
import Idealize.ShloMosaic.Lib.Pipeline.Value
import Idealize.ShloMosaic.Lib.StableHlo.Run
import Idealize.ShloMosaic.PureOps.Ideal.Laws

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Cert.Spec
open Cert.KernelIdeal.Columns Cert.KernelIdeal.Blocks Cert.KernelIdeal.Accum
open Idealize.ShloMosaic.ValueIdx

variable (m : (ℓ : Loc nD τ sig) → Buf (Elt Ideal) ℓ) (ρ : Dev nD → PrngReg)

/-- The output array's contents: every sample's normalised loss. -/
def losses (c : Dev nD) : Buf (Elt Ideal) ((c : Thread nD τ).loc main_v4) :=
  fun j : S2048x1.Idx => Ideal.div (rowNum (argO m c) (argT m c) (argW m c) ⟨(j 0).val, idx2_lt0 j⟩) rowDen

/-- The losses at sample `b`'s position. -/
theorem losses_at (c : Dev nD) (b : Fin 2048) :
    losses m c (ix2 b (0 : Fin 1)) = Ideal.div (rowNum (argO m c) (argT m c) (argW m c) b) rowDen := rfl

-- a sample's numerator and the common denominator are opaque quantities from here on: only which sample they belong to matters
attribute [local irreducible] Cert.Spec.rowNum Cert.Spec.rowDen

/-- The output block a last feature tile leaves, at any of its positions. -/
theorem out_at_idx (c : Dev nD) (t : Fin cfg0.N) (h1 : t.val % 8 = 7) (y : S256x1.Idx) :
    outBlk m c t.val t.isLt y
      = Ideal.div (rowNum (argO m c) (argT m c) (argW m c) (rowOf t ⟨(y 0).val, idx2_lt0 y⟩)) rowDen := by
  obtain ⟨r, z, rfl⟩ : ∃ (r : Fin 256) (z : Fin 1), y = ix2 r z := ⟨y 0, y 1, eq_ix2 y⟩
  obtain rfl : z = 0 := Subsingleton.elim _ _
  exact out_at m c t h1 r

/-- What a writing point writes back is its block of the losses. -/
theorem flushed_eq (c : Dev nD) (t : Fin cfg0.N) (hf : (cfg0.win 3).flush t = true) :
    (dats m 0 c).flushed 3 t = ((cfg0.win 3).blk t).view.read (Elt Ideal) (losses m c) := by
  have h7 : t.val % 8 = 7 := (flush0_3 t).mp hf
  show (cfg0.win 3).cut (grid0.coords t) ((dats m 0 c).after 3 t) = _
  rw [after0_3]
  refine funext fun (y : S256x1.Idx) => ?_
  rw [View.read_apply]
  refine (out_at_idx m c t h7 y).trans ?_
  refine (losses_at m c _).symm.trans ?_
  refine congrArg (losses m c) ?_
  funext a
  apply Fin.ext
  match a with
  | ⟨0, _⟩ => show 256 * (t.val / 8) + (y 0).val = win0_3.index t 0 * 256 + 1 * (y 0).val; rw [(index_out t).1]; omega
  | ⟨1, _⟩ => show 0 = win0_3.index t 1 * 1 + 1 * (y 1).val; rw [(index_out t).2]; have : (y 1).val < 1 := idx2_lt1 y; omega

/-- A position of the output array is in point `t`'s block iff each coordinate is in the block's range. -/
theorem mem_blk (t : Fin cfg0.N) (i : S2048x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v4).slice (win0_3.rect t)).set ↔ _
  rw [View.set_slice_whole, Rect.mem_set_unit]
  exact Iff.rfl

/-- Every sample's position is in the block written at the last feature tile of its row tile. -/
theorem cover (c : Dev nD) (i : S2048x1.Idx) :
    ∃ t : Fin cfg0.N, (cfg0.win 3).flush t = true ∧ i ∈ ((cfg0.win 3).blk t).view.set := by
  have hi0 : (i 0).val < 2048 := (i 0).isLt
  have hi1 : (i 1).val < 1 := (i 1).isLt
  have hN : cfg0.N = 64 := N_0
  refine ⟨⟨8 * ((i 0).val / 256) + 7, by rw [hN]; omega⟩, (flush0_3 _).mpr (by show (8 * ((i 0).val / 256) + 7) % 8 = 7; omega), ?_⟩
  rw [mem_blk]
  intro a
  match a with
  | ⟨0, _⟩ =>
    show win0_3.index _ 0 * 256 ≤ (i 0).val ∧ (i 0).val < win0_3.index _ 0 * 256 + 256
    rw [(index_out _).1]
    show (8 * ((i 0).val / 256) + 7) / 8 * 256 ≤ (i 0).val ∧ (i 0).val < (8 * ((i 0).val / 256) + 7) / 8 * 256 + 256
    omega
  | ⟨1, _⟩ =>
    show win0_3.index _ 1 * 1 ≤ (i 1).val ∧ (i 1).val < win0_3.index _ 1 * 1 + 1
    rw [(index_out _).2]
    omega

/-- The output array after the region: the losses. -/
theorem final (c : Dev nD) : (dats m 0 c).arrAt 3 cfg0.N = losses m c :=
  (dats m 0 c).arrAt_eq_of_cover 3 (losses m c) (flushed_eq m c) (cover c)

/-- The host sum after the region, over the losses. -/
theorem tail_eq (c : Dev nD) :
    Pipeline.afterTail₀ cfgs (dats m) 0 (V0 m) [hostOps1] c main_v5
      = Host.reduceAdd (F := Ideal) (losses m c) (constant (F := Ideal) S_ .f32 0x00000000#32) reducesTo_S2048x1_S_d0_1 h_S_ := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v4) = losses m c from
    (Pipeline.withArrays_arr spec0 launch0.win.arr_inj c _ _ 3).trans (final m c)]

/-- The sum of the losses from zero is the specified loss. -/
theorem sum_eq (c : Dev nD) (i : S_.Idx) :
    Host.reduceAdd (F := Ideal) (losses m c) (constant (F := Ideal) S_ .f32 0x00000000#32) reducesTo_S2048x1_S_d0_1 h_S_ i
      = loss (argO m c) (argT m c) (argW m c) := by
  simp only [Host.reduceAdd, Ideal.hostReduceAdd_def]
  refine (Ideal.hostReduceAdd_total reducesTo_S2048x1_S_d0_1 (fun b => b.elim0) (losses m c) _ i).trans ?_
  rw [constant_apply, Ideal.ofBits_zero_f32, zero_add, sum_col]
  rfl

/-- The program's run: every weakly fair execution ends with the result at the specified loss of the arguments, and
    the arguments as they were. -/
theorem run : θ_run defs (onTc (τ := τ) (main (F := Ideal))) ⟨m, fun _ => 0, ρ⟩ fun r => ∀ c : Dev nD,
      r.2.mem ((c.tc : Thread nD τ).loc main_v5) = (fun _ => loss (argO m c) (argT m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v5 (Pipeline.mem_restRefs_of main_v5 (by decide) (by decide))).trans (tail_eq m c)).trans (funext (sum_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefRead.lean ====
/-
  The reference program's result, read index by index at the ideal instance, is the specified loss.

  The reference masks the target by "is this entry a number", subtracts the prediction, multiplies by the mask again,
  flattens each sample's [16, 32, 32] entries to a row of 16384, scales each column by its feature weight, squares,
  sums each row, divides by the row's count of numbers, and sums the rows. On the extended reals every entry is a
  number, so the mask is the set bit everywhere, its float value is one, and the selected target is the target itself.
  What remains is, entry for entry, the specification's weighted squared residual at the row-major position of the
  feature, and the sums are the specification's sums once a rank-1 index is read as its one coordinate.
-/
import proofs.«148412_j67869073212117_1_alg».proof.Proof.Gen.ReferenceIdeal.Read
import proofs.«148412_j67869073212117_1_alg».proof.Proof.Spec

noncomputable section

open scoped BigOperators

namespace Cert.RefRead

open Cert.ReferenceIdeal Cert.ReferenceIdeal.Read Cert.Spec
open Idealize.ShloMosaic Idealize.ShloMosaic.ValueIdx

variable (o t : (⟨S2048x16x32x32, .f32⟩ : BufTy).Contents (Elt Ideal)) (w : (⟨S16384x1, .f32⟩ : BufTy).Contents (Elt Ideal))

/-- The "is a number" mask is set at every entry. -/
theorem mask_set (z : S2048x16x32x32.Idx) : val_main_v1 (F := Ideal) t z = 1#1 := by
  rw [val_main_v1_apply, val_main_v0_apply, Ideal.cmpf_def, cmp_une_self]
  rfl

/-- Its float value is one. -/
theorem maskf_one (z : S2048x16x32x32.Idx) : val_main_v3 (F := Ideal) t z = 1 := by
  rw [val_main_v3_apply, mask_set]
  show (((1#1 : BitVec 1).toNat : ℝ) : EReal) = 1
  simp

/-- The flattening reads feature `f` of sample `b` at its row-major position inside the sample. -/
theorem flat_pos (b : Fin 2048) (f : Fin 16384) : idx_main_v6 (ix2 b f) = pos b f := by
  have hb := b.isLt; have hf := f.isLt
  funext a
  apply Fin.ext
  match a with
  | ⟨0, _⟩ => show (b.val * 16384 + f.val) / 16384 = b.val; omega
  | ⟨1, _⟩ => show (b.val * 16384 + f.val) / 1024 % 16 = f.val / 1024; omega
  | ⟨2, _⟩ => show (b.val * 16384 + f.val) / 32 % 32 = f.val / 32 % 32; omega
  | ⟨3, _⟩ => show (b.val * 16384 + f.val) % 32 = f.val % 32; omega

theorem flat_pos' (b : Fin 2048) (f : Fin 16384) : idx_main_v13 (ix2 b f) = pos b f := flat_pos b f

/-- The weight row at column `f` is the weight column's entry `f`. -/
theorem weight_pos (b : Fin 2048) (f : Fin 16384) : idx_main_v7 (idx_main_v8 (idx_main_v9 (ix2 b f))) = wpos f := by
  funext a
  apply Fin.ext
  match a with
  | ⟨0, _⟩ => show f.val / 1 = f.val; omega
  | ⟨1, _⟩ => rfl

/-- One squared, weighted, masked residual of the reference is the specification's term. -/
theorem sq_at (b : Fin 2048) (f : Fin 16384) : val_main_v11 (F := Ideal) o t w (ix2 b f) = term o t w b f := by
  rw [val_main_v11_apply, val_main_v10_apply, val_main_v6_apply, val_main_v9_apply, val_main_v8_apply, val_main_v7_apply,
    val_main_v5_apply, val_main_v4_apply, val_main_v2_apply, maskf_one, mask_set, flat_pos, weight_pos, select_one]
  rfl

/-- A row's sum of squares is the specification's numerator. -/
theorem num_at (b : Fin 2048) : val_main_v12 (F := Ideal) o t w (ix1 b) = rowNum o t w b := by
  rw [val_main_v12_apply, val_main_cst_0_apply, Ideal.ofBits_def, Ideal.ofBits_zero_f32, zero_add]
  unfold rowNum
  refine Finset.sum_congr rfl fun f _ => ?_
  rw [show idx_main_v12 (ix1 b) f = ix2 b f from funext fun a => by match a with | ⟨0, _⟩ => rfl | ⟨1, _⟩ => rfl]
  exact sq_at o t w b f

/-- A row's count is the specification's denominator. -/
theorem den_at (b : Fin 2048) : val_main_v14 (F := Ideal) t (ix1 b) = rowDen := by
  rw [val_main_v14_apply, val_main_cst_1_apply, Ideal.ofBits_def, Ideal.ofBits_zero_f32, zero_add]
  unfold rowDen
  refine Finset.sum_congr rfl fun f _ => ?_
  rw [val_main_v13_apply, maskf_one]

/-- The reference's result is the specified loss. -/
theorem result_eq (i : S_.Idx) : val_main_v16 (F := Ideal) o t w i = loss o t w := by
  rw [val_main_v16_apply, val_main_cst_2_apply, Ideal.ofBits_def, Ideal.ofBits_zero_f32, zero_add, sum_idx1]
  unfold loss
  refine Finset.sum_congr rfl fun b _ => ?_
  rw [val_main_v15_apply, num_at, den_at]
  rfl

end Cert.RefRead

end
-- ==== Proof.lean ====
/-
  A feature-weighted, per-sample normalised squared error: the kernel against its reference, over the extended reals.

  Both programs take predictions and targets of shape [2048, 16, 32, 32] and a column of 16384 feature weights, and
  return one number: for each of the 2048 samples the sum over its 16384 features of `((t - o) * mask * w)²`, divided
  by the sum of the mask over the sample, and then the sum of these quotients over the samples. The mask asks whether
  a target entry is a number; on the extended reals every entry is, so the mask is one everywhere.

  The reference computes this with whole-array operations. The kernel streams each block of 256 samples through 8
  tiles of 2048 features, keeps the two running sums of a block in two columns that it clears at a block's first
  tile, and at the block's last tile stores the quotient of the columns; the program then sums the stored quotients.
  The two agree because a sum over 16384 features taken 2048 at a time is the whole sum: only commutativity and
  associativity of addition on the extended reals are used, so the precondition (finite inputs) is not needed.

  The frames of the two kernel programs are the generated ones; the reference's frame is its generated run with the
  result dropped. The idealisation rewrote nothing, so there is nothing to preserve beyond the program text itself.
-/
import proofs.«148412_j67869073212117_1_alg».proof.Defs
import proofs.«148412_j67869073212117_1_alg».proof.Proof.Gen.Kernel
import proofs.«148412_j67869073212117_1_alg».proof.Proof.Gen.Kernel.Frame
import proofs.«148412_j67869073212117_1_alg».proof.Proof.Gen.KernelIdeal
import proofs.«148412_j67869073212117_1_alg».proof.Proof.Gen.KernelIdeal.Frame
import proofs.«148412_j67869073212117_1_alg».proof.Proof.Gen.ReferenceIdeal
import proofs.«148412_j67869073212117_1_alg».proof.Proof.Gen.ReferenceIdeal.Run
import proofs.«148412_j67869073212117_1_alg».proof.Proof.Gen.Pre_finite_inputs
import proofs.«148412_j67869073212117_1_alg».proof.Proof.KernelRun
import proofs.«148412_j67869073212117_1_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program ends at the specified loss of its arguments, and the reference, run on arguments that agree,
    ends at the same specified loss. -/
theorem algebraic : Cert.algebraic_KernelIdeal_ReferenceIdeal := by
  intro m ρ m' ρ' _ hagree
  refine ⟨fun c => fun _ => Cert.Spec.loss (Cert.KernelIdeal.Accum.argO m c) (Cert.KernelIdeal.Accum.argT m c) (Cert.KernelIdeal.Accum.argW m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2.2.2]
  funext i
  exact Cert.RefRead.result_eq _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
